-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x8192 : Shape := ⟨2, ![4096, 8192]⟩
abbrev S8192x8192 : Shape := ⟨2, ![8192, 8192]⟩
abbrev S_ : Shape := ⟨0, ![]⟩

class Facts : Prop where

variable [Facts]

def fn {F : FTy → Type} [FloatOps F] (main_arg0 : IVec S4096x8192 1) (main_arg1 : IVec S8192x8192 1) : IVec S_ 1 :=
  let main_c : IVec S_ 1 := constantI S_ 1 1#1
  main_c
-- ==== Kernel.lean ====
abbrev S4096x8192 : Shape := ⟨2, ![4096, 8192]⟩
abbrev S8192x8192 : Shape := ⟨2, ![8192, 8192]⟩
abbrev S1024x1024 : Shape := ⟨2, ![1024, 1024]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S4096x8192, .i1⟩
  | .hbm, ⟨1, _⟩ => ⟨S8192x8192, .i1⟩
  | .hbm, ⟨2, _⟩ => ⟨S4096x8192, .i32⟩
  | .hbm, ⟨3, _⟩ => ⟨S8192x8192, .i32⟩
  | .hbm, ⟨4, _⟩ => ⟨S4096x8192, .i32⟩
  | .hbm, ⟨5, _⟩ => ⟨S_, .i32⟩
  | .hbm, ⟨6, _⟩ => ⟨S4096x8192, .i32⟩
  | .hbm, ⟨7, _⟩ => ⟨S4096x8192, .i1⟩
  | .hbm, ⟨8, _⟩ => ⟨S4096x8192, .i1⟩
  | .local _ .vmem, ⟨0, _⟩ => ⟨S1024x1024, .i32⟩
  | .local _ .vmem, ⟨1, _⟩ => ⟨S1024x1024, .i32⟩
  | .local _ .vmem, ⟨2, _⟩ => ⟨S1024x1024, .i32⟩
  | .local _ .vmem, ⟨3, _⟩ => ⟨S1024x1024, .i32⟩
  | .local _ .vmem, ⟨4, _⟩ => ⟨S1024x1024, .i32⟩
  | .local _ .vmem, ⟨5, _⟩ => ⟨S1024x1024, .i32⟩
  | .local _ .vmem, ⟨6, _⟩ => ⟨S1024x1024, .f32⟩
  | _, _ => ⟨S4096x8192, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_10 : BitVec 32 := 0#32
  let v21 : BitVec 1 := Scalar.cmpi .ne v20 c0_i32_10
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  natLt_1_32 : 1 < 32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  bcast_S_S4096x8192 : S_.BroadcastsInDim S4096x8192 (![] : Fin 0 → Fin S4096x8192.rank)
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x8192.size a
  hwx0_0 : ∀ i : grid0.Coords, EltTy.bits .i32 = 32 ∨ (Rect.block (s := S4096x8192) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .i32 = 32 ∨ (Rect.block (s := S8192x8192) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x8192.size a
  hwx0_2 : ∀ i : grid0.Coords, EltTy.bits .i32 = 32 ∨ (Rect.block (s := S4096x8192) S1024x1024.size (cc0_transform_2 i) (hinb0_2 i)).WholeWords (EltTy.packing .i32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x8192 : Shape := ⟨2, ![4096, 8192]⟩
abbrev S8192x8192 : Shape := ⟨2, ![8192, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .i1⟩
  | .hbm, ⟨1, _⟩ => ⟨S8192x8192, .i1⟩
  | .hbm, ⟨2, _⟩ => ⟨S4096x8192, .f32⟩
  | .hbm, ⟨3, _⟩ => ⟨S8192x8192, .i1⟩
  | .hbm, ⟨4, _⟩ => ⟨S8192x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | _, _ => ⟨S4096x8192, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S4096x8192 : S_.BroadcastsInDim S4096x8192 (![] : Fin 0 → Fin S4096x8192.rank)
  dot_S4096x8192_S8192x8192_S4096x8192_1_0_0_1_n_n_wf : DotDims.WF S4096x8192 S8192x8192 S4096x8192 [1] [0] [0] [1] [] []

variable [Facts₀]

def dot_S4096x8192_S8192x8192_S4096x8192_1_0_0_1_n_n : DotDims S4096x8192 S8192x8192 S4096x8192 where
  lhsContracting := [1]
  rhsContracting := [0]
  lhsNonContracting := [0]
  rhsNonContracting := [1]
  lhsBatch := []
  rhsBatch := []
  wf := dot_S4096x8192_S8192x8192_S4096x8192_1_0_0_1_n_n_wf

class Facts : Prop extends Facts₀ where

variable [Facts]
-- ==== Proof.Pieces.lean ====
/-
  What each control case of the kernel body leaves behind, as values.  The body runs in one of three cases, by the
  position `k` of the grid point on the reduction axis: at `k = 0` it clears the accumulator and adds the point's
  block product to it; at `0 < k < 7` it adds the block product to what the point before left; at `k = 7` it does the
  same and then stores the test `0 < acc` of the new accumulator into the output block.  In every case the accumulator
  ends at the second payload of the loaded blocks and of the accumulator the product is added to — the cleared one
  (the first payload) at `k = 0`, the previous point's otherwise — and at `k = 7` the output block ends at the third
  payload of that new accumulator: the body reads back what it has just stored.
-/
import proofs.«154510_j51342039056576_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- A middle point: the accumulator ends at the block product added to what it held. -/
theorem acc_mid (c : Dev nD) (i : grid0.Coords) (a3 : Memref sig .tc .vmem S1024x1024 .i32) (h3 : a3.IsWhole)
    (a4 : Memref sig .tc .vmem S1024x1024 .i32) (h4 : a4.IsWhole) (a5 : Memref sig .tc .vmem S1024x1024 .i32) (h5 : a5.IsWhole)
    (a6 : Memref sig .tc .vmem S1024x1024 .f32) (h6 : a6.IsWhole) (hc0 : ¬cond0_0 i) (hc1 : ¬cond0_1 i)
    (x0 x1 : Vec F S1024x1024 .i32) (xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A last point: the accumulator ends as at a middle point. -/
theorem acc_last (c : Dev nD) (i : grid0.Coords) (a3 : Memref sig .tc .vmem S1024x1024 .i32) (h3 : a3.IsWhole)
    (a4 : Memref sig .tc .vmem S1024x1024 .i32) (h4 : a4.IsWhole) (a5 : Memref sig .tc .vmem S1024x1024 .i32) (h5 : a5.IsWhole)
    (a6 : Memref sig .tc .vmem S1024x1024 .f32) (h6 : a6.IsWhole) (hc0 : ¬cond0_0 i) (hc1 : cond0_1 i)
    (x0 x1 : Vec F S1024x1024 .i32) (xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- A last point: the output block ends at the test of the accumulator the point has just stored. -/
theorem out_last (c : Dev nD) (i : grid0.Coords) (a3 : Memref sig .tc .vmem S1024x1024 .i32) (h3 : a3.IsWhole)
    (a4 : Memref sig .tc .vmem S1024x1024 .i32) (h4 : a4.IsWhole) (a5 : Memref sig .tc .vmem S1024x1024 .i32) (h5 : a5.IsWhole)
    (a6 : Memref sig .tc .vmem S1024x1024 .f32) (h6 : a6.IsWhole) (hc0 : ¬cond0_0 i) (hc1 : cond0_1 i)
    (x0 x1 : Vec F S1024x1024 .i32) (xs0 : Vec F S1024x1024 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

/-- A first point: the accumulator ends at the block product added to the cleared accumulator. -/
theorem acc_first (c : Dev nD) (i : grid0.Coords) (a3 : Memref sig .tc .vmem S1024x1024 .i32) (h3 : a3.IsWhole)
    (a4 : Memref sig .tc .vmem S1024x1024 .i32) (h4 : a4.IsWhole) (a5 : Memref sig .tc .vmem S1024x1024 .i32) (h5 : a5.IsWhole)
    (a6 : Memref sig .tc .vmem S1024x1024 .f32) (h6 : a6.IsWhole) (hc0 : cond0_0 i) (hc1 : ¬cond0_1 i)
    (x0 x1 : Vec F S1024x1024 .i32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces

end
-- ==== Proof.Steps.lean ====
/-
  One step of the accumulation, point by point.  The grid runs its reduction axis fastest, so the position `k` of a
  point `t` on that axis is `t mod 8`.  After a point with `k = 0` the accumulator holds the point's block product
  added to the cleared accumulator; after any other point it holds the point's block product added to what the point
  before left; and after a point with `k = 7` the output block holds the test of that new accumulator.  The two input
  blocks of a point are named here at their literal type, a 1024 × 1024 block of words.
-/
import proofs.«154510_j51342039056576_1_alg».proof.Proof.Pieces

set_option maxRecDepth 16384

noncomputable section

namespace Cert.KernelIdeal.Steps

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- The block of the first operand at point `t`. -/
abbrev xblk (c : Dev nD) (t : Fin cfg0.N) : Vec F S1024x1024 .i32 := iblk m c 0 t
/-- The block of the second operand at point `t`. -/
abbrev wblk (c : Dev nD) (t : Fin cfg0.N) : Vec F S1024x1024 .i32 := iblk m c 1 t

/-- The point before `t` is a point. -/
theorem pred_lt (t : Fin cfg0.N) : t.val - 1 < cfg0.N := Nat.lt_of_le_of_lt (Nat.sub_le _ _) t.isLt

/-- After a point with `k = 0`. -/
theorem acc_at_first (c : Dev nD) (t : Fin cfg0.N) (h0 : t.val % 8 = 0) (h1 : ¬t.val % 8 = 7) :
    (outsAt0 m c t.val t.isLt).2 = k0_pay2 (xblk m c t) (wblk m c t) k0_pay1 := by
  rw [outsAt0_A m c t h0 h1]
  dsimp only
  exact acc_first (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a point with `0 < k < 7`. -/
theorem acc_at_mid (c : Dev nD) (t : Fin cfg0.N) (h0 : ¬t.val % 8 = 0) (h1 : ¬t.val % 8 = 7) :
    (outsAt0 m c t.val t.isLt).2 = k0_pay2 (xblk m c t) (wblk m c t) (outsAt0 m c (t.val - 1) (pred_lt t)).2 := by
  rw [outsAt0_B m c t h0 h1]
  dsimp only
  exact acc_mid (F := F) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (pred_lt t)).2

/-- After a point with `k = 7`: the accumulator, -/
theorem acc_at_last (c : Dev nD) (t : Fin cfg0.N) (h0 : ¬t.val % 8 = 0) (h1 : t.val % 8 = 7) :
    (outsAt0 m c t.val t.isLt).2 = k0_pay2 (xblk m c t) (wblk m c t) (outsAt0 m c (t.val - 1) (pred_lt t)).2 := by
  rw [outsAt0_C m c t h0 h1]
  dsimp only
  exact acc_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (pred_lt t)).2

/-- and the output block. -/
theorem out_at_last (c : Dev nD) (t : Fin cfg0.N) (h0 : ¬t.val % 8 = 0) (h1 : t.val % 8 = 7) :
    (outsAt0 m c t.val t.isLt).1
      = k0_pay3 (k0_pay2 (xblk m c t) (wblk m c t) (outsAt0 m c (t.val - 1) (pred_lt t)).2) := by
  rw [outsAt0_C m c t h0 h1]
  dsimp only
  exact out_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (pred_lt t)).2

end Cert.KernelIdeal.Steps

end
-- ==== Proof.Counting.lean ====
/-
  The Boolean matrix product as a count.  For bit matrices `x` (4096 × 8192) and `w` (8192 × 8192) the entry
  (a, b) of the result is the disjunction over the columns `k` of `x a k ∧ w b k`; read over the extended reals it
  is the test `0 < ∑ k, [x a k] · [w b k]`, each bit read as the real 0 or 1.  This module states that count over
  the natural numbers (an entry outside its matrix reads 0, so that a sum over a range of columns needs no bound
  on its terms), the one law the two programs differ by — a count over the first `n + 1024` columns is the count
  over the first `n` plus the count over the next 1024 — and the three facts about single bits by which a bit
  widened to a word, tested against zero and converted to a float is the same real as the bit itself.
-/
import Idealize.ShloMosaic.PureOps.Ideal
import Idealize.ShloMosaic.PureOps.Ideal.Laws
import Idealize.ShloMosaic.Lib.ValueIdx

noncomputable section

namespace Cert.BoolCount

open Idealize.ShloMosaic Idealize.ShloMosaic.ValueIdx

/-- A bit as an extended real: 0 or 1. -/
def bit01 (b : BitVec 1) : EReal := ((b.toNat : ℝ) : EReal)

/-- Every one-bit word is 0 or 1. -/
theorem bit_cases (b : BitVec 1) : b = 0#1 ∨ b = 1#1 := by
  revert b; decide

/-- Entry (a, k) of a bit matrix as an extended real; 0 outside the matrix. -/
def ent {R C : ℕ} (x : IVec ⟨2, ![R, C]⟩ 1) (a k : ℕ) : EReal :=
  if h : a < R ∧ k < C then bit01 (x (ix2 ⟨a, h.1⟩ ⟨k, h.2⟩)) else 0

theorem ent_of_lt {R C : ℕ} (x : IVec ⟨2, ![R, C]⟩ 1) (a : Fin R) (k : Fin C) :
    ent x a.val k.val = bit01 (x (ix2 a k)) := by
  unfold ent
  rw [dif_pos ⟨a.isLt, k.isLt⟩]

/-- How many of the first `n` columns carry a set bit both in row `a` of `x` and in row `b` of `w`. -/
def common {R R' C : ℕ} (x : IVec ⟨2, ![R, C]⟩ 1) (w : IVec ⟨2, ![R', C]⟩ 1) (a b n : ℕ) : EReal :=
  ∑ k ∈ Finset.range n, ent x a k * ent w b k

theorem common_zero {R R' C : ℕ} (x : IVec ⟨2, ![R, C]⟩ 1) (w : IVec ⟨2, ![R', C]⟩ 1) (a b : ℕ) :
    common x w a b 0 = 0 := by
  unfold common; rw [Finset.range_zero, Finset.sum_empty]

/-- The count over `n + d` columns is the count over the first `n` plus the count over the next `d`. -/
theorem common_add {R R' C : ℕ} (x : IVec ⟨2, ![R, C]⟩ 1) (w : IVec ⟨2, ![R', C]⟩ 1) (a b n d : ℕ) :
    common x w a b (n + d) = common x w a b n + ∑ j : Fin d, ent x a (n + j.val) * ent w b (n + j.val) := by
  unfold common
  rw [Finset.sum_range_add, ← Finset.sum_range fun j => ent x a (n + j) * ent w b (n + j)]

/-- The count over all `C` columns, as the sum over the column index. -/
theorem common_full {R R' C : ℕ} (x : IVec ⟨2, ![R, C]⟩ 1) (w : IVec ⟨2, ![R', C]⟩ 1) (a : Fin R) (b : Fin R') :
    common x w a.val b.val C = ∑ k : Fin C, bit01 (x (ix2 a k)) * bit01 (w (ix2 b k)) := by
  unfold common
  rw [Finset.sum_range]
  exact Finset.sum_congr rfl fun k _ => by rw [ent_of_lt, ent_of_lt]

/-- The Boolean product: entry (a, b) is set exactly when some column carries a set bit both in row `a` of `x` and in
    row `b` of `w`, that is, when the count over all columns is above zero. -/
def orBits {R R' C : ℕ} (x : IVec ⟨2, ![R, C]⟩ 1) (w : IVec ⟨2, ![R', C]⟩ 1) : IVec ⟨2, ![R, R']⟩ 1 :=
  fun i => Ideal.cmp .ogt (common x w (i 0).val (i 1).val C) 0

/-! ## Single bits -/

/-- A bit widened to a word, tested against zero, widened again and read as a signed integer is the bit as a real. -/
theorem word_test_real (b : BitVec 1) :
    (((IntOp.cmpi .ne (b.setWidth 32) (0#32 : BitVec 32)).setWidth 32).toInt : ℝ) = (b.toNat : ℝ) := by
  rcases bit_cases b with rfl | rfl
  · have : ((IntOp.cmpi .ne ((0#1 : BitVec 1).setWidth 32) (0#32 : BitVec 32)).setWidth 32).toInt = 0 := by decide
    rw [this]; simp
  · have : ((IntOp.cmpi .ne ((1#1 : BitVec 1).setWidth 32) (0#32 : BitVec 32)).setWidth 32).toInt = 1 := by decide
    rw [this]; simp

/-- A bit widened to a word and tested against zero is the bit. -/
theorem word_test_bit (b : BitVec 1) : IntOp.cmpi .ne (b.setWidth 32) (0#32 : BitVec 32) = b := by
  rcases bit_cases b with rfl | rfl <;> decide

end Cert.BoolCount

end
-- ==== Proof.Payload.lean ====
/-
  The body's three payloads read at an index, over the extended reals.  The cleared accumulator is 0 everywhere.  The
  second payload at (p, q) is the accumulator it is added to at (p, q) plus the sum over the 1024 columns `j` of the
  products `[x p j ≠ 0] · [w q j ≠ 0]` of the two loaded word blocks — both blocks are contracted along their columns,
  so row `q` of the second block meets row `p` of the first; the narrowing to sixteen bits before the product is the
  identity over the reals.  The third payload at an index is the test `0 < acc` there, widened to a word.
-/
import proofs.«154510_j51342039056576_1_alg».proof.Proof.Gen.KernelIdeal.Skeleton
import proofs.«154510_j51342039056576_1_alg».proof.Proof.Counting
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen
open Idealize.ShloMosaic Idealize.ShloMosaic.ValueIdx

/-- A word read as the real 0 or 1: whether it is not zero. -/
def word01 (v : BitVec 32) : EReal := ((((IntOp.cmpi .ne v (0#32 : BitVec 32)).setWidth 32).toInt : ℝ) : EReal)

/-- A widened bit read so is the bit. -/
theorem word01_widen (b : BitVec 1) : word01 (b.setWidth 32) = Cert.BoolCount.bit01 b := by
  unfold word01 Cert.BoolCount.bit01
  rw [Cert.BoolCount.word_test_real]

/-- The cleared accumulator is zero at every index. -/
theorem cleared_apply (y : S1024x1024.Idx) : k0_pay1 (F := Ideal) y = 0 := by
  unfold k0_pay1
  simp only [shapeCast_self]
  exact Ideal.ofBits_zero_f32

/-! ## The block product at an index -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two blocks, both contracted along their columns, into the zero accumulator: at (p, q) the sum over
    the columns `j` of the first block's (p, j) times the second block's (q, j). -/
theorem block_product_apply (l r : FVec Ideal S1024x1024 .bf16) (p q : Fin 1024) :
    matmul dot_S1024x1024_S1024x1024_S1024x1024_1_1_0_0_n_n none l r (constant S1024x1024 .f32 0x00000000#32) (ix2 p q)
      = ∑ j : Fin 1024, l (ix2 p j) * r (ix2 q j) := by
  simp only [matmul]
  rw [Ideal.matmul_constant_zero_apply, ← Equiv.sum_comp (contrEquiv1 dot_S1024x1024_S1024x1024_S1024x1024_1_1_0_0_n_n 1024 rfl rfl).symm]
  refine Finset.sum_congr rfl fun j _ => ?_
  have hj := contrEquiv1_symm_val dot_S1024x1024_S1024x1024_S1024x1024_1_1_0_0_n_n 1024 rfl rfl j
  have el : dot_S1024x1024_S1024x1024_S1024x1024_1_1_0_0_n_n.lhsIdx (ix2 p q) ((contrEquiv1 dot_S1024x1024_S1024x1024_S1024x1024_1_1_0_0_n_n 1024 rfl rfl).symm j) = ix2 p j := funext fun a => Fin.ext (by
    match a with
    | ⟨0, _⟩ => exact lhs_axis0 _ _
    | ⟨1, _⟩ => exact (lhs_axis1 _ _).trans hj)
  have er : dot_S1024x1024_S1024x1024_S1024x1024_1_1_0_0_n_n.rhsIdx (ix2 p q) ((contrEquiv1 dot_S1024x1024_S1024x1024_S1024x1024_1_1_0_0_n_n 1024 rfl rfl).symm j) = ix2 q j := funext fun a => Fin.ext (by
    match a with
    | ⟨0, _⟩ => exact rhs_axis0 _ _
    | ⟨1, _⟩ => exact (rhs_axis1 _ _).trans hj)
  rw [el, er]

/-- The second payload at (p, q): the accumulator there plus the count of the columns where both word blocks are not zero. -/
theorem added_apply (v3 v8 : Vec Ideal S1024x1024 .i32) (v13 : Vec Ideal S1024x1024 .f32) (p q : Fin 1024) :
    k0_pay2 (F := Ideal) v3 v8 v13 (ix2 p q) = v13 (ix2 p q) + ∑ j : Fin 1024, word01 (v3 (ix2 p j)) * word01 (v8 (ix2 q j)) := by
  unfold k0_pay2
  simp only [shapeCast_self]
  rw [addf_apply, block_product_apply]
  rfl

/-- The third payload at an index: whether the accumulator there is above zero, as a word. -/
theorem tested_apply (v22 : Vec Ideal S1024x1024 .f32) (y : S1024x1024.Idx) :
    k0_pay3 (F := Ideal) v22 y = (Ideal.cmp .ogt (v22 y) 0).setWidth 32 := by
  unfold k0_pay3
  show (Ideal.cmp .ogt (v22 y) (Ideal.ofBits .f32 0x00000000#32)).setWidth 32 = _
  rw [Ideal.ofBits_zero_f32]

end Cert.KernelIdeal.Payload

end
-- ==== Proof.Accum.lean ====
/-
  The accumulator after every grid point, in closed form.  Point `t` of the 4 × 8 × 8 grid is at row block
  `t / 64` of the first operand, at row block `t / 8 mod 8` of the second, and at column block `k = t mod 8` of both.
  The two arrays the region reads are the argument bit matrices widened to words, so a loaded word is not zero exactly
  where the argument bit is set: entry (p, j) of the first block at `t` reads as bit (1024·(t/64) + p, 1024·k + j) of
  `x`, and entry (q, j) of the second as bit (1024·(t/8 mod 8) + q, 1024·k + j) of `w`.  Hence the block product at
  (p, q) counts the common set bits of those two rows among the columns 1024·k … 1024·k + 1023, and, by induction on
  the point — the count over the first `n + 1024` columns is the count over the first `n` plus that of the next 1024 —,
  the accumulator after point `t` holds at (p, q) the count over the first 1024·(k + 1) columns.  After a point with
  `k = 7` that is the count over all 8192 columns, and the output block holds its test against zero.
-/
import proofs.«154510_j51342039056576_1_alg».proof.Proof.Steps
import proofs.«154510_j51342039056576_1_alg».proof.Proof.Payload
import proofs.«154510_j51342039056576_1_alg».proof.Proof.Counting
import Idealize.ShloMosaic.Lib.StableHlo.Run
import Idealize.ShloMosaic.Lib.Tactic

set_option maxRecDepth 16384

noncomputable section

namespace Cert.KernelIdeal.Accum

open Cert.KernelIdeal Cert.KernelIdeal.Gen Cert.KernelIdeal.Steps Cert.KernelIdeal.Payload Cert.BoolCount
open Idealize.ShloMosaic Idealize.ShloMosaic.TcCoe Idealize.SL.Sem Idealize.ShloMosaic.ValueIdx

variable (m : (ℓ : Loc nD τ sig) → Buf (Elt Ideal) ℓ)

/-- The two argument bit matrices. -/
abbrev xarr (c : Dev nD) : IVec S4096x8192 1 := m ((c : Thread nD τ).loc main_arg0)
abbrev warr (c : Dev nD) : IVec S8192x8192 1 := m ((c : Thread nD τ).loc main_arg1)

/-- The region finds the first operand's array at the first argument widened to words, -/
theorem widened_x (c : Dev nD) : (V m c main_v0 : IVec S4096x8192 32) = extui 32 (xarr m c) natLt_1_32 := by
  show StableHlo.after hostOps0 (fun b => m (c, b)) (Proc.devRef .tc main_v0) = _
  after_results
/-- and the second operand's at the second argument widened. -/
theorem widened_w (c : Dev nD) : (V m c main_v1 : IVec S8192x8192 32) = extui 32 (warr m c) natLt_1_32 := by
  show StableHlo.after hostOps0 (fun b => m (c, b)) (Proc.devRef .tc main_v1) = _
  after_results

/-- The block indices of the three windows at point `t`, decided over the grid. -/
theorem idx_facts : ∀ t : Fin cfg0.N,
    win0_0.index t (0 : Fin 2) = t.val / 64 ∧ win0_0.index t (1 : Fin 2) = t.val % 8
    ∧ win0_1.index t (0 : Fin 2) = t.val / 8 % 8 ∧ win0_1.index t (1 : Fin 2) = t.val % 8
    ∧ win0_2.index t (0 : Fin 2) = t.val / 64 ∧ win0_2.index t (1 : Fin 2) = t.val / 8 % 8 :=
  (by decide +kernel : ∀ t : Fin grid0.N, _)

/-- A word of the first block, read as 0 or 1, is the argument's bit. -/
theorem xblk_word (c : Dev nD) (t : Fin cfg0.N) (p j : Fin 1024) :
    word01 (xblk m c t (ix2 p j)) = ent (xarr m c) (t.val / 64 * 1024 + p.val) (t.val % 8 * 1024 + j.val) := by
  obtain ⟨e0, e1, -, -, -, -⟩ := idx_facts t
  have hN : t.val < 256 := lt_of_lt_of_eq t.isLt (show cfg0.N = 256 from N_0)
  have hp := p.isLt
  have hj := j.isLt
  have hb : t.val / 64 * 1024 + p.val < 4096 ∧ t.val % 8 * 1024 + j.val < 8192 := by omega
  unfold ent
  rw [dif_pos hb]
  show word01 (V m c main_v0 (((cfg0.win 0).blk t).view.emb (ix2 p j))) = _
  rw [widened_x]
  show word01 ((xarr m c (((cfg0.win 0).blk t).view.emb (ix2 p j))).setWidth 32) = _
  rw [word01_widen]
  refine congrArg (fun i => bit01 (xarr m c i)) ?_
  funext a
  apply Fin.ext
  match a with
  | ⟨0, _⟩ => show win0_0.index t (0 : Fin 2) * 1024 + 1 * p.val = t.val / 64 * 1024 + p.val; rw [e0]; omega
  | ⟨1, _⟩ => show win0_0.index t (1 : Fin 2) * 1024 + 1 * j.val = t.val % 8 * 1024 + j.val; rw [e1]; omega

/-- The same for the second block. -/
theorem wblk_word (c : Dev nD) (t : Fin cfg0.N) (q j : Fin 1024) :
    word01 (wblk m c t (ix2 q j)) = ent (warr m c) (t.val / 8 % 8 * 1024 + q.val) (t.val % 8 * 1024 + j.val) := by
  obtain ⟨-, -, e0, e1, -, -⟩ := idx_facts t
  have hN : t.val < 256 := lt_of_lt_of_eq t.isLt (show cfg0.N = 256 from N_0)
  have hq := q.isLt
  have hj := j.isLt
  have hb : t.val / 8 % 8 * 1024 + q.val < 8192 ∧ t.val % 8 * 1024 + j.val < 8192 := by omega
  unfold ent
  rw [dif_pos hb]
  show word01 (V m c main_v1 (((cfg0.win 1).blk t).view.emb (ix2 q j))) = _
  rw [widened_w]
  show word01 ((warr m c (((cfg0.win 1).blk t).view.emb (ix2 q j))).setWidth 32) = _
  rw [word01_widen]
  refine congrArg (fun i => bit01 (warr m c i)) ?_
  funext a
  apply Fin.ext
  match a with
  | ⟨0, _⟩ => show win0_1.index t (0 : Fin 2) * 1024 + 1 * q.val = t.val / 8 % 8 * 1024 + q.val; rw [e0]; omega
  | ⟨1, _⟩ => show win0_1.index t (1 : Fin 2) * 1024 + 1 * j.val = t.val % 8 * 1024 + j.val; rw [e1]; omega

/-- One step at (p, q): the accumulator plus the count over the point's 1024 columns. -/
theorem step_value (c : Dev nD) (t : Fin cfg0.N) (acc : Vec Ideal S1024x1024 .f32) (p q : Fin 1024) :
    k0_pay2 (xblk m c t) (wblk m c t) acc (ix2 p q)
      = acc (ix2 p q) + ∑ j : Fin 1024, ent (xarr m c) (t.val / 64 * 1024 + p.val) (t.val % 8 * 1024 + j.val)
          * ent (warr m c) (t.val / 8 % 8 * 1024 + q.val) (t.val % 8 * 1024 + j.val) := by
  refine (added_apply (xblk m c t) (wblk m c t) acc p q).trans ?_
  refine congrArg (acc (ix2 p q) + ·) (Finset.sum_congr rfl fun j _ => ?_)
  rw [xblk_word, wblk_word]

/-- The accumulator after point `n`: at (p, q) the count, over the first 1024·(n mod 8 + 1) columns, of the common set
    bits of the point's row of `x` and row of `w`. -/
def accAfter (c : Dev nD) (n : ℕ) : Vec Ideal S1024x1024 .f32 := fun y =>
  common (xarr m c) (warr m c) (n / 64 * 1024 + (y 0).val) (n / 8 % 8 * 1024 + (y 1).val) (n % 8 * 1024 + 1024)

/-- After a point with `k = 0`. -/
theorem first_value (c : Dev nD) (t : Fin cfg0.N) (h0 : t.val % 8 = 0) :
    (outsAt0 m c t.val t.isLt).2 = accAfter m c t.val := by
  refine (acc_at_first m c t h0 (by omega)).trans ?_
  funext y
  obtain ⟨p, q, rfl⟩ : ∃ (p q : Fin 1024), y = ix2 p q := ⟨y 0, y 1, eq_ix2 y⟩
  refine (step_value m c t (k0_pay1 (F := Ideal)) p q).trans ?_
  rw [cleared_apply, zero_add]
  show _ = common (xarr m c) (warr m c) (t.val / 64 * 1024 + p.val) (t.val / 8 % 8 * 1024 + q.val) (t.val % 8 * 1024 + 1024)
  rw [common_add, h0, Nat.zero_mul, common_zero, zero_add]

/-- After any other point, from the accumulator the point before left. -/
theorem next_value (c : Dev nD) (t : Fin cfg0.N) (h0 : ¬t.val % 8 = 0) (acc : Vec Ideal S1024x1024 .f32)
    (hacc : acc = accAfter m c (t.val - 1)) :
    k0_pay2 (xblk m c t) (wblk m c t) acc = accAfter m c t.val := by
  funext y
  obtain ⟨p, q, rfl⟩ : ∃ (p q : Fin 1024), y = ix2 p q := ⟨y 0, y 1, eq_ix2 y⟩
  refine (step_value m c t acc p q).trans ?_
  rw [hacc]
  show common (xarr m c) (warr m c) ((t.val - 1) / 64 * 1024 + p.val) ((t.val - 1) / 8 % 8 * 1024 + q.val) ((t.val - 1) % 8 * 1024 + 1024) + _
    = common (xarr m c) (warr m c) (t.val / 64 * 1024 + p.val) (t.val / 8 % 8 * 1024 + q.val) (t.val % 8 * 1024 + 1024)
  rw [show (t.val - 1) / 64 = t.val / 64 by omega, show (t.val - 1) / 8 % 8 = t.val / 8 % 8 by omega,
    show (t.val - 1) % 8 * 1024 + 1024 = t.val % 8 * 1024 by omega, common_add]

/-- The accumulator after every point. -/
theorem acc_eq (c : Dev nD) : ∀ (n : ℕ) (h : n < cfg0.N), (outsAt0 m c n h).2 = accAfter m c n := by
  intro n
  induction n with
  | zero => intro h; exact first_value m c ⟨0, h⟩ rfl
  | succ n ih =>
    intro h
    by_cases h0 : (n + 1) % 8 = 0
    · exact first_value m c ⟨n + 1, h⟩ h0
    · have ihn : (outsAt0 m c n (Nat.lt_of_succ_lt h)).2 = accAfter m c n := ih (Nat.lt_of_succ_lt h)
      by_cases h1 : (n + 1) % 8 = 7
      · exact (acc_at_last m c ⟨n + 1, h⟩ h0 h1).trans (next_value m c ⟨n + 1, h⟩ h0 _ ihn)
      · exact (acc_at_mid m c ⟨n + 1, h⟩ h0 h1).trans (next_value m c ⟨n + 1, h⟩ h0 _ ihn)

/-- The output block after a point with `k = 7`: at (p, q) the test, as a word, of the count over all 8192 columns. -/
theorem out_eq (c : Dev nD) (t : Fin cfg0.N) (h1 : t.val % 8 = 7) :
    (outsAt0 m c t.val t.isLt).1 = fun y =>
      (Ideal.cmp .ogt (common (xarr m c) (warr m c) (t.val / 64 * 1024 + (y 0).val) (t.val / 8 % 8 * 1024 + (y 1).val) 8192) 0).setWidth 32 := by
  have h0 : ¬t.val % 8 = 0 := by omega
  refine (out_at_last m c t h0 h1).trans ?_
  rw [← acc_at_last m c t h0 h1, acc_eq m c t.val t.isLt]
  funext y
  rw [tested_apply]
  show (Ideal.cmp .ogt (common (xarr m c) (warr m c) (t.val / 64 * 1024 + (y 0).val) (t.val / 8 % 8 * 1024 + (y 1).val) (t.val % 8 * 1024 + 1024)) 0).setWidth 32 = _
  rw [h1]

end Cert.KernelIdeal.Accum

end
-- ==== Proof.KernelValue.lean ====
/-
  The kernel's result.  The output window is written back only after the points with `k = 7`, one per output block
  (row block `t / 64`, column block `t / 8 mod 8`), and then holds the test of the full count at every entry of the
  block; the 4 × 8 blocks tile the 4096 × 8192 array, so the region leaves the array of words holding, at (a, b), the
  bit of the Boolean product widened to a word.  The host lines after the region compare that array with zero, which
  gives the bit back, and copy it: the program's result is the Boolean product of its arguments, which it leaves
  unchanged.
-/
import proofs.«154510_j51342039056576_1_alg».proof.Proof.Accum
import Idealize.ShloMosaic.Lib.Pipeline.Value
import Idealize.ShloMosaic.Lib.StableHlo.Run
import Idealize.ShloMosaic.Lib.Tactic

set_option maxRecDepth 16384

noncomputable section

namespace Cert.KernelIdeal.KValue

open Cert.KernelIdeal Cert.KernelIdeal.Gen Cert.KernelIdeal.Steps Cert.KernelIdeal.Accum Cert.BoolCount
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array the region leaves: the product's bits, each widened to a word. -/
abbrev wordsOut (c : Dev nD) : IVec S4096x8192 32 := fun i => (orBits (xarr m c) (warr m c) i).setWidth 32

/-- What a point with `k = 7` writes back is its block of that array. -/
theorem flushed_eq (c : Dev nD) (t : Fin cfg0.N) (hf : (cfg0.win 2).flush t = true) :
    (dats m 0 c).flushed 2 t = ((cfg0.win 2).blk t).view.read (Elt Ideal) (wordsOut m c) := by
  have h1 : t.val % 8 = 7 := (flush0_2 t).mp hf
  obtain ⟨-, -, -, -, e0, e1⟩ := idx_facts t
  show (cfg0.win 2).cut (grid0.coords t) ((dats m 0 c).after 2 t) = _
  rw [after0_2, out_eq m c t h1]
  funext y
  show (Ideal.cmp .ogt (common (xarr m c) (warr m c) (t.val / 64 * 1024 + (y 0).val) (t.val / 8 % 8 * 1024 + (y 1).val) 8192) 0).setWidth 32
    = (Ideal.cmp .ogt (common (xarr m c) (warr m c) ((((cfg0.win 2).blk t).view.emb y) 0).val ((((cfg0.win 2).blk t).view.emb y) 1).val 8192) 0).setWidth 32
  have a0 : ((((cfg0.win 2).blk t).view.emb y) 0).val = t.val / 64 * 1024 + (y 0).val := by
    show win0_2.index t (0 : Fin 2) * 1024 + 1 * (y 0).val = _
    rw [e0]; omega
  have a1 : ((((cfg0.win 2).blk t).view.emb y) 1).val = t.val / 8 % 8 * 1024 + (y 1).val := by
    show win0_2.index t (1 : Fin 2) * 1024 + 1 * (y 1).val = _
    rw [e1]; omega
  rw [a0, a1]

/-- An index of the array is in point `t`'s block iff each coordinate is in the block's range on its axis. -/
theorem mem_blk (t : Fin cfg0.N) (i : S4096x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every index of the array is in the block some point with `k = 7` writes back: the one of its row block and column block. -/
theorem covered (i : S4096x8192.Idx) :
    ∃ t : Fin cfg0.N, (cfg0.win 2).flush t = true ∧ i ∈ ((cfg0.win 2).blk t).view.set := by
  have hi0 : (i 0).val < 4096 := (i 0).isLt
  have hi1 : (i 1).val < 8192 := (i 1).isLt
  have hN : cfg0.N = 256 := N_0
  obtain ⟨n, hn⟩ : ∃ n : ℕ, n = (i 0).val / 1024 * 64 + (i 1).val / 1024 * 8 + 7 := ⟨_, rfl⟩
  have hlt : n < cfg0.N := by rw [hN]; omega
  refine ⟨⟨n, hlt⟩, (flush0_2 ⟨n, hlt⟩).mpr (by show n % 8 = 7; omega), ?_⟩
  rw [mem_blk]
  obtain ⟨-, -, -, -, e0, e1⟩ := idx_facts ⟨n, hlt⟩
  intro a
  match a with
  | ⟨0, _⟩ =>
    show win0_2.index ⟨n, hlt⟩ (0 : Fin 2) * 1024 ≤ (i 0).val ∧ (i 0).val < win0_2.index ⟨n, hlt⟩ (0 : Fin 2) * 1024 + 1024
    rw [e0]
    show n / 64 * 1024 ≤ (i 0).val ∧ (i 0).val < n / 64 * 1024 + 1024
    omega
  | ⟨1, _⟩ =>
    show win0_2.index ⟨n, hlt⟩ (1 : Fin 2) * 1024 ≤ (i 1).val ∧ (i 1).val < win0_2.index ⟨n, hlt⟩ (1 : Fin 2) * 1024 + 1024
    rw [e1]
    show n / 8 % 8 * 1024 ≤ (i 1).val ∧ (i 1).val < n / 8 % 8 * 1024 + 1024
    omega

/-- The array after the region. -/
theorem final_words (c : Dev nD) : (dats m 0 c).arrAt 2 cfg0.N = wordsOut m c :=
  (dats m 0 c).arrAt_eq_of_cover 2 (wordsOut m c) (flushed_eq m c) covered

/-- The host lines after the region turn the words back into the product's bits. -/
theorem tail_value (c : Dev nD) :
    Pipeline.afterTail₀ cfgs (dats m) 0 (V0 m) [hostOps1] c main_v5 = orBits (xarr m c) (warr m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = wordsOut m c :=
    (Pipeline.withArrays_arr spec0 launch0.win.arr_inj c _ _ 2).trans (final_words m c)
  rw [e]
  funext i
  show IntOp.cmpi .ne ((orBits (xarr m c) (warr m c) i).setWidth 32) (0#32 : BitVec 32) = _
  exact word_test_bit _

/-- The run, read: every weakly fair execution ends with the result at the Boolean product of the arguments, and the
    arguments as they were. -/
theorem run : θ_run defs (onTc (τ := τ) (main (F := Ideal))) ⟨m, fun _ => 0, ρ⟩ fun r => ∀ c : Dev nD,
      r.2.mem ((c.tc : Thread nD τ).loc main_v5) = orBits (xarr m c) (warr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference computes the Boolean product.  It converts both bit matrices to floats — a bit read unsigned is the
  real 0 or 1 —, transposes the second, contracts the columns of the first with the rows of the transpose, and tests
  the result against zero.  Entry (k, b) of the transpose is entry (b, k) of `w`, so at (a, b) the contraction is the
  sum over the columns `k` of `[x a k] · [w b k]`: the count of the common set bits of row `a` of `x` and row `b` of
  `w`, and its test against zero is the product's entry.
-/
import proofs.«154510_j51342039056576_1_alg».proof.Proof.RefReadP
import proofs.«154510_j51342039056576_1_alg».proof.Proof.Counting

noncomputable section

namespace Cert.ReferenceIdeal.RefValue

open Cert.ReferenceIdeal Cert.ReferenceIdeal.Gen Cert.ReferenceIdeal.ReadP Cert.BoolCount
open Idealize.ShloMosaic Idealize.ShloMosaic.ValueIdx

/-- The reference's result is the Boolean product of its arguments. -/
theorem result_eq (x : IVec S4096x8192 1) (w : IVec S8192x8192 1) :
    val_main_v5 (F := Ideal) x w = orBits x w := by
  funext i
  rw [val_main_v5_apply, val_main_v3_apply, val_main_v4_apply, val_main_cst_apply]
  unfold orBits
  rw [common_full x w (i 0) (i 1)]
  show Ideal.cmp .ogt _ (Ideal.ofBits .f32 0x00000000#32) = _
  rw [Ideal.ofBits_zero_f32]
  refine congrArg (fun s => Ideal.cmp .ogt s 0) (Finset.sum_congr rfl fun k _ => ?_)
  rw [val_main_v0_apply, val_main_v2_apply, val_main_v1_apply]
  have e1 : lidx_main_v3 i k = ix2 (i 0) k := funext fun a => by
    match a with
    | ⟨0, _⟩ => rfl
    | ⟨1, _⟩ => rfl
  have e2 : idx_main_v1 (ridx_main_v3 i k) = ix2 (i 1) k := funext fun a => by
    match a with
    | ⟨0, _⟩ => rfl
    | ⟨1, _⟩ => rfl
  rw [e1, e2]
  rfl

end Cert.ReferenceIdeal.RefValue

end
-- ==== Proof.lean ====
/-
  The kernel computes the Boolean matrix product `out[a, b] = ⋁ₖ x[a, k] ∧ w[b, k]` of a 4096 × 8192 and an
  8192 × 8192 bit matrix as the test `0 < ∑ₖ [x a k] · [w b k]`, the bits read as the reals 0 and 1.  It tiles the sum:
  a 4 × 8 × 8 grid of 1024 × 1024 blocks, the column axis fastest, an accumulator cleared at the first column block of
  each output block, each point adding its block product, the test stored after the eighth.  The reference converts
  the matrices to floats, transposes `w`, contracts once over all 8192 columns and tests.  Over the extended reals both
  are the same count — a sum over the first `n + 1024` columns is the sum over the first `n` plus the sum over the next
  1024, which needs only that addition is associative and commutative, so nothing is asked of the inputs — and the
  same test of it.  The ideal pass rewrote nothing, so the idealization is preserved trivially; the three programs'
  frames are the kernel's generated frame at both instances and the reference's run with its result dropped.
-/
import proofs.«154510_j51342039056576_1_alg».proof.Defs
import proofs.«154510_j51342039056576_1_alg».proof.Proof.Gen.Kernel
import proofs.«154510_j51342039056576_1_alg».proof.Proof.Gen.Kernel.Frame
import proofs.«154510_j51342039056576_1_alg».proof.Proof.Gen.KernelIdeal
import proofs.«154510_j51342039056576_1_alg».proof.Proof.Gen.KernelIdeal.Frame
import proofs.«154510_j51342039056576_1_alg».proof.Proof.Gen.ReferenceIdeal
import proofs.«154510_j51342039056576_1_alg».proof.Proof.Gen.Pre_any_inputs
import proofs.«154510_j51342039056576_1_alg».proof.Proof.KernelValue
import proofs.«154510_j51342039056576_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From arguments that agree, both programs end with the Boolean product of the arguments: the kernel by its
    tiled count, the reference by its one contraction. -/
theorem algebraic : Cert.algebraic_KernelIdeal_ReferenceIdeal := by
  intro m ρ m' ρ' _ hagree
  refine ⟨fun c => Cert.BoolCount.orBits (Cert.KernelIdeal.Accum.xarr m c) (Cert.KernelIdeal.Accum.warr m c),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  exact (Cert.ReferenceIdeal.ReadP.val_main_v5_eq _ _).trans (Cert.ReferenceIdeal.RefValue.result_eq _ _)

theorem claim : Cert.Claim := ⟨Cert.Kernel.Gen.facts, Cert.KernelIdeal.Gen.facts, Cert.ReferenceIdeal.Gen.facts, Cert.Pre_any_inputs.Gen.facts,
  frame_kernel, frame_kernelIdeal, frame_referenceIdeal, trivial, algebraic⟩

end Cert.Proof

end
